-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S800000x128 : Shape := ⟨2, ![800000, 128]⟩
abbrev S100000x128 : Shape := ⟨2, ![100000, 128]⟩
abbrev S512x128 : Shape := ⟨2, ![512, 128]⟩
abbrev S512 : Shape := ⟨1, ![512]⟩
abbrev S1600000 : Shape := ⟨1, ![1600000]⟩
abbrev S100000 : Shape := ⟨1, ![100000]⟩
abbrev S_ : Shape := ⟨0, ![]⟩

class Facts : Prop where
  bcast_S_S800000x128 : S_.BroadcastsInDim S800000x128 (![] : Fin 0 → Fin S800000x128.rank)
  reducesTo_S800000x128_S_d0_1 : S800000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x128 .f32) (main_arg5 : FVec F S512 .f32) (main_arg6 : FVec F S512 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S800000x128 .f32) (main_arg1 : FVec F S100000x128 .f32) (main_arg2 : FVec F S100000x128 .f32) (main_arg3 : FVec F S512x128 .f32) (main_arg4 : FVec F S512x128 .f32) (main_arg5 : FVec F S512 .f32) (main_arg6 : FVec F S512 .f32) (main_arg7 : IVec S1600000 32) (main_arg8 : IVec S1600000 32) (main_arg9 : IVec S100000 32) : IVec S_ 1 :=
  let main_v0 : FVec F S800000x128 .f32 := Host.absf main_arg0
  let main_cst : FVec F S_ .f32 := constant S_ .f32 0x7F800000#32
  let main_v1 : FVec F S800000x128 .f32 := broadcastInDim S800000x128 ![] bcast_S_S800000x128 main_cst
  let main_v2 : IVec S800000x128 1 := cmpf .olt main_v0 main_v1
  let main_c : IVec S_ 1 := constantI S_ 1 1#1
  let main_v3 : IVec S_ 1 := (fun x v => Host.reduce IntOp.andi x v reducesTo_S800000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg2
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S512x128 .f32 := Host.absf main_arg3
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg4 main_arg5 main_arg6 main_v13 main_v16
-- ==== Kernel.lean ====
abbrev S800000x128 : Shape := ⟨2, ![800000, 128]⟩
abbrev S100000x128 : Shape := ⟨2, ![100000, 128]⟩
abbrev S512x128 : Shape := ⟨2, ![512, 128]⟩
abbrev S512 : Shape := ⟨1, ![512]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S128x512 : Shape := ⟨2, ![128, 512]⟩
abbrev S1x512 : Shape := ⟨2, ![1, 512]⟩
abbrev S2000x128 : Shape := ⟨2, ![2000, 128]⟩
abbrev S2000x512 : Shape := ⟨2, ![2000, 512]⟩

abbrev nBuf : Space → Nat
  | .hbm => 29
  | .vmem => 14
  | .smem => 0
  | _ => 0

abbrev bufTy : (tb : Table) → Fin (tcTables nBuf tb) → BufTy
  | .hbm, ⟨0, _⟩ => ⟨S800000x128, .f32⟩
  | .hbm, ⟨1, _⟩ => ⟨S100000x128, .f32⟩
  | .hbm, ⟨2, _⟩ => ⟨S100000x128, .f32⟩
  | .hbm, ⟨3, _⟩ => ⟨S512x128, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x512, .f32⟩
  | .hbm, ⟨24, _⟩ => ⟨S128x512, .f32⟩
  | .hbm, ⟨25, _⟩ => ⟨S1x512, .f32⟩
  | .hbm, ⟨26, _⟩ => ⟨S1x512, .f32⟩
  | .hbm, ⟨27, _⟩ => ⟨S100000x128, .f32⟩
  | .hbm, ⟨28, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | _, _ => ⟨S800000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S512x128_S128x512_1_0 : S512x128.Transposes [1, 0] S128x512
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  slices_S2000x512_o0_0_S2000x128 : S2000x512.Slices ![0, 0] S2000x128
  slices_S2000x512_o0_128_S2000x128 : S2000x512.Slices ![0, 128] S2000x128
  slices_S2000x512_o0_256_S2000x128 : S2000x512.Slices ![0, 256] S2000x128
  slices_S2000x512_o0_384_S2000x128 : S2000x512.Slices ![0, 384] S2000x128
  gather_S800000x128_S1600000x1_S1600000x128_1_0_n_n_0_1_1128_wf : GatherDims.WF S800000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x512_S2000x512_1_0_0_1_n_n_wf : DotDims.WF S2000x128 S128x512 S2000x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S128x512.size a
  hwx0_3 : ∀ i : grid0.Coords, EltTy.bits .f32 = 32 ∨ (Rect.block (s := S128x512) S128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .f32 = 32 ∨ (Rect.block (s := S100000x128) S2000x128.size (cc0_transform_8 i) (hinb0_8 i)).WholeWords (EltTy.packing .f32)

variable [Facts₀]

def gather_S800000x128_S1600000x1_S1600000x128_1_0_n_n_0_1_1128 : GatherDims S800000x128 S1600000x1 S1600000x128 where
  offsetDims := [1]
  collapsedSliceDims := [0]
  operandBatchingDims := []
  startIndicesBatchingDims := []
  startIndexMap := [0]
  indexVectorDim := 1
  sliceSizes := ![1, 128]
  wf := gather_S800000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v14_0) S2000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v14_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S800000x128 : Shape := ⟨2, ![800000, 128]⟩
abbrev S100000x128 : Shape := ⟨2, ![100000, 128]⟩
abbrev S512x128 : Shape := ⟨2, ![512, 128]⟩
abbrev S512 : Shape := ⟨1, ![512]⟩
abbrev S1600000 : Shape := ⟨1, ![1600000]⟩
abbrev S100000 : Shape := ⟨1, ![100000]⟩
abbrev S_ : Shape := ⟨0, ![]⟩
abbrev S1600000x1 : Shape := ⟨2, ![1600000, 1]⟩
abbrev S1600000x128 : Shape := ⟨2, ![1600000, 128]⟩
abbrev S128x512 : Shape := ⟨2, ![128, 512]⟩
abbrev S100000x512 : Shape := ⟨2, ![100000, 512]⟩
abbrev S1x512 : Shape := ⟨2, ![1, 512]⟩

abbrev nBuf : Space → Nat
  | .hbm => 68
  | .vmem => 0
  | .smem => 0
  | _ => 0

abbrev bufTy : (tb : Table) → Fin (tcTables nBuf tb) → BufTy
  | .hbm, ⟨0, _⟩ => ⟨S800000x128, .f32⟩
  | .hbm, ⟨1, _⟩ => ⟨S100000x128, .f32⟩
  | .hbm, ⟨2, _⟩ => ⟨S100000x128, .f32⟩
  | .hbm, ⟨3, _⟩ => ⟨S512x128, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S1600000, .i32⟩
  | .hbm, ⟨8, _⟩ => ⟨S1600000, .i32⟩
  | .hbm, ⟨9, _⟩ => ⟨S100000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S128x512, .f32⟩
  | .hbm, ⟨24, _⟩ => ⟨S100000x512, .f32⟩
  | .hbm, ⟨25, _⟩ => ⟨S1x512, .f32⟩
  | .hbm, ⟨26, _⟩ => ⟨S100000x512, .f32⟩
  | .hbm, ⟨27, _⟩ => ⟨S100000x512, .f32⟩
  | .hbm, ⟨28, _⟩ => ⟨S128x512, .f32⟩
  | .hbm, ⟨29, _⟩ => ⟨S100000x512, .f32⟩
  | .hbm, ⟨30, _⟩ => ⟨S100000x512, .f32⟩
  | .hbm, ⟨31, _⟩ => ⟨S1x512, .f32⟩
  | .hbm, ⟨32, _⟩ => ⟨S100000x512, .f32⟩
  | .hbm, ⟨33, _⟩ => ⟨S100000x512, .f32⟩
  | .hbm, ⟨34, _⟩ => ⟨S100000x128, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S_, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | .hbm, ⟨60, _⟩ => ⟨S_, .f32⟩
  | .hbm, ⟨61, _⟩ => ⟨S100000x128, .f32⟩
  | .hbm, ⟨62, _⟩ => ⟨S100000x128, .f32⟩
  | .hbm, ⟨63, _⟩ => ⟨S100000x128, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S100000x128, .f32⟩
  | _, _ => ⟨S800000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_cst_2 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_3 : Ref sig .tc := ⟨.hbm, 48, rfl⟩
abbrev main_v33 : Ref sig .tc := ⟨.hbm, 49, rfl⟩
abbrev main_v34 : Ref sig .tc := ⟨.hbm, 50, rfl⟩
abbrev main_cst_4 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_5 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S512x128_S128x512_1_0 : S512x128.Transposes [1, 0] S128x512
  bcast_S512_S1x512_1 : S512.BroadcastsInDim S1x512 (![1] : Fin 1 → Fin S1x512.rank)
  bcast_S1x512_S100000x512_0_1 : S1x512.BroadcastsInDim S100000x512 (![0, 1] : Fin 2 → Fin S100000x512.rank)
  slices_S100000x512_S100000x128_0_0 : S100000x512.Slices ![0, 0] S100000x128
  slices_S100000x512_S100000x128_0_128 : S100000x512.Slices ![0, 128] S100000x128
  slices_S100000x512_S100000x128_0_256 : S100000x512.Slices ![0, 256] S100000x128
  slices_S100000x512_S100000x128_0_384 : S100000x512.Slices ![0, 384] S100000x128
  gather_S800000x128_S1600000x1_S1600000x128_1_0_n_n_0_1_1128_wf : GatherDims.WF S800000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x512_S100000x512_1_0_0_1_n_n_wf : DotDims.WF S100000x128 S128x512 S100000x512 [1] [0] [0] [1] [] []

variable [Facts₀]

def gather_S800000x128_S1600000x1_S1600000x128_1_0_n_n_0_1_1128 : GatherDims S800000x128 S1600000x1 S1600000x128 where
  offsetDims := [1]
  collapsedSliceDims := [0]
  operandBatchingDims := []
  startIndicesBatchingDims := []
  startIndexMap := [0]
  indexVectorDim := 1
  sliceSizes := ![1, 128]
  wf := gather_S800000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf

class Facts : Prop extends Facts₀ where

variable [Facts]
-- ==== Proof.LibPlainDot.lean ====
/-
  A plain two-dimensional contraction (rows x inner times inner x columns, no batch axis) read at an index.
  At the extended reals the matrix unit's product into a zero accumulator and the host's dot product are both
  the sum, over the inner index k, of the left operand's entry (row, k) times the right operand's entry (k, column).
-/
import Idealize.ShloMosaic.Lib.ValueIdx
import Idealize.ShloMosaic.PureOps.Ideal.Laws
import Idealize.ShloMosaic.Lib.ValueLayout

noncomputable section

namespace Cert.PlainDot

open Idealize.ShloMosaic Idealize.ShloMosaic.ValueIdx

variable {M K N : Nat}

/-- The left operand is read on its row axis at the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand is read on its inner axis at the contraction index. -/
theorem lhs_inner (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand is read on its inner axis at the contraction index. -/
theorem rhs_inner (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand is read on its column axis at the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum re-indexed by the inner coordinate. -/
theorem sum_contr (A : (⟨2, ![M, K]⟩ : Shape).Idx → EReal) (B : (⟨2, ![K, N]⟩ : Shape).Idx → EReal)
    (j : (⟨2, ![M, N]⟩ : Shape).Idx) :
    (∑ q : (DotDims.plain M K N).contr.Idx, A ((DotDims.plain M K N).lhsIdx j q) * B ((DotDims.plain M K N).rhsIdx j q))
      = ∑ k : Fin K, A (ix2 (j 0) k) * B (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact (lhs_inner _ _).trans hk)
  have er : (DotDims.plain M K N).rhsIdx j ((contrEquiv1 (DotDims.plain M K N) K rfl rfl).symm k) = ix2 k (j 1) :=
    funext fun a => Fin.ext (by
      match a with
      | ⟨0, _⟩ => exact (rhs_inner _ _).trans hk
      | ⟨1, _⟩ => exact rhs_col _ _)
  exact congrArg₂ (· * ·) (congrArg A el) (congrArg B er)

/-- The matrix unit's product into the zero accumulator, at an output index: the plain sum of products. -/
theorem matmul_zero_apply {φ₁ φ₂ : FTy} (prec : Option ContractPrecision)
    (A : FVec Ideal (⟨2, ![M, K]⟩ : Shape) φ₁) (B : FVec Ideal (⟨2, ![K, N]⟩ : Shape) φ₂) (j : (⟨2, ![M, N]⟩ : Shape).Idx) :
    FloatOps.matmul (DotDims.plain M K N) prec A B (constant (⟨2, ![M, N]⟩ : Shape) .f32 0x00000000#32) j
      = ∑ k : Fin K, A (ix2 (j 0) k) * B (ix2 k (j 1)) :=
  (Ideal.matmul_constant_zero_apply (DotDims.plain M K N) prec A B j).trans (sum_contr A B j)

/-- The host's dot product at an output index: the same sum. -/
theorem dotGeneral_apply {φ₁ φ₂ : FTy} (prec : Option ContractPrecision) (sched : HostSchedule)
    (A : FVec Ideal (⟨2, ![M, K]⟩ : Shape) φ₁) (B : FVec Ideal (⟨2, ![K, N]⟩ : Shape) φ₂) (j : (⟨2, ![M, N]⟩ : Shape).Idx) :
    FloatOps.dotGeneral (DotDims.plain M K N) prec sched A B j
      = ∑ k : Fin K, A (ix2 (j 0) k) * B (ix2 k (j 1)) :=
  (Ideal.dotGeneral_apply (DotDims.plain M K N) prec sched A B j).trans (sum_contr A B j)

/-! ## A matrix product with a row added to every row -/

/-- The matrix product of `A` and `B` with the one-row array `b` added to each of its rows: the entry at
    (r, c) is `∑ k, A (r, k) * B (k, c) + b (0, c)`. -/
def affine (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => (∑ k : Fin K, A (ix2 (j 0) k) * B (ix2 k (j 1))) + b (ix2 (0 : Fin 1) (j 1))

/-- The matrix unit's product into a zero accumulator plus a one-row array broadcast over the rows is `affine`. -/
theorem matmul_add_row_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    addf (matmul (DotDims.plain M K N) prec A B (constant (⟨2, ![M, N]⟩ : Shape) .f32 0x00000000#32))
        (broadcastTo (⟨2, ![M, N]⟩ : Shape) b h) = affine A B b := by
  funext j
  obtain ⟨p, q, rfl⟩ : ∃ (p : Fin M) (q : Fin N), j = ix2 p q := ⟨j 0, j 1, eq_ix2 j⟩
  show FloatOps.matmul (DotDims.plain M K N) prec A B (constant (⟨2, ![M, N]⟩ : Shape) .f32 0x00000000#32) (ix2 p q)
      + broadcastTo (⟨2, ![M, N]⟩ : Shape) b h (ix2 p q) = _
  rw [matmul_zero_apply, broadcastTo_1b_ab_apply]
  rfl

/-- `affine` followed by the rectifier: each entry's maximum with the value of the zero word. -/
def affineRelu (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun j => max (affine A B b j) (Ideal.ofBits .f32 0x00000000#32)

/-- The same product and row, then the entrywise maximum with a splat of the zero word, is `affineRelu`. -/
theorem matmul_add_row_max_eq {φ₁ φ₂ : FTy} (prec : Option ContractPrecision)
    (A : FVec Ideal (⟨2, ![M, K]⟩ : Shape) φ₁) (B : FVec Ideal (⟨2, ![K, N]⟩ : Shape) φ₂)
    (b : FVec Ideal (⟨2, ![1, N]⟩ : Shape) .f32) (h : (⟨2, ![1, N]⟩ : Shape).Broadcasts ⟨2, ![M, N]⟩) :
    maximumf (addf (matmul (DotDims.plain M K N) prec A B (constant (⟨2, ![M, N]⟩ : Shape) .f32 0x00000000#32))
        (broadcastTo (⟨2, ![M, N]⟩ : Shape) b h))
      (broadcast (⟨2, ![M, N]⟩ : Shape) (Scalar.ofBits (F := Ideal) .f32 0x00000000#32)) = affineRelu A B b := by
  rw [matmul_add_row_eq]
  rfl

end Cert.PlainDot

end
-- ==== Proof.LstmCell.lean ====
/-
  One step of a long short-term memory cell, read row by row on the extended reals.

  For a row `r` the four gates' pre-activations are the 512 numbers
      pre r q = (sum over k of x (r, k) * W (q, k)) + (sum over k of h (r, k) * U (q, k)) + b q + d q,
  columns 0..127 for the input gate, 128..255 for the forget gate, 256..383 for the candidate and 384..511 for the
  output gate. With s the logistic function, the new cell state and the new hidden state at (r, j) are
      cell   = s (pre r (j + 128)) * c (r, j) + s (pre r j) * tanh (pre r (j + 256)),
      hidden = s (pre r (j + 384)) * tanh cell.
  Nothing here needs the entries to be finite: the only law used later is that addition of extended reals is
  commutative and associative, and that the logistic function is 1 / (1 + exp (-x)) at every extended real.
-/
import Idealize.ShloMosaic.Lib.ValueIdx
import Idealize.ShloMosaic.PureOps.Ideal
import Idealize.ShloMosaic.PureOps.Ideal.Laws

noncomputable section

namespace Cert.LstmCell

open Idealize.ShloMosaic Idealize.ShloMosaic.ValueIdx

variable {R : Nat}

/-- Column `j` of the gate block that starts at column `o` of the 512 pre-activation columns. -/
abbrev col (o : Nat) (ho : o + 128 ≤ 512) (j : Fin 128) : Fin 512 := ⟨j.val + o, by have := j.isLt; omega⟩

/-- The pre-activation at row `r`, gate column `q`: row `r` of `x` against row `q` of `W`, row `r` of `h` against row `q`
    of `U`, and the two bias entries at `q`. -/
def pre (x h : (⟨2, ![R, 128]⟩ : Shape).Idx → EReal) (W U : (⟨2, ![512, 128]⟩ : Shape).Idx → EReal)
    (b d : (⟨1, ![512]⟩ : Shape).Idx → EReal) (r : Fin R) (q : Fin 512) : EReal :=
  (∑ k : Fin 128, x (ix2 r k) * W (ix2 q k)) + (∑ k : Fin 128, h (ix2 r k) * U (ix2 q k)) + b (ix1 q) + d (ix1 q)

/-- The new cell state: the forget gate times the old cell state plus the input gate times the candidate. -/
def cell (x h c : (⟨2, ![R, 128]⟩ : Shape).Idx → EReal) (W U : (⟨2, ![512, 128]⟩ : Shape).Idx → EReal)
    (b d : (⟨1, ![512]⟩ : Shape).Idx → EReal) (i : (⟨2, ![R, 128]⟩ : Shape).Idx) : EReal :=
  FloatOps.addf (F := Ideal) (φ := .f32)
    (FloatOps.mulf (F := Ideal) (φ := .f32)
      (FloatOps.logistic (F := Ideal) (φ := .f32) (pre x h W U b d (i 0) (col 128 (by omega) (i 1)))) (c i))
    (FloatOps.mulf (F := Ideal) (φ := .f32)
      (FloatOps.logistic (F := Ideal) (φ := .f32) (pre x h W U b d (i 0) (col 0 (by omega) (i 1))))
      (FloatOps.tanh (F := Ideal) (φ := .f32) (pre x h W U b d (i 0) (col 256 (by omega) (i 1)))))

/-- The new hidden state: the output gate times the hyperbolic tangent of the new cell state. -/
def hidden (x h c : (⟨2, ![R, 128]⟩ : Shape).Idx → EReal) (W U : (⟨2, ![512, 128]⟩ : Shape).Idx → EReal)
    (b d : (⟨1, ![512]⟩ : Shape).Idx → EReal) (i : (⟨2, ![R, 128]⟩ : Shape).Idx) : EReal :=
  FloatOps.mulf (F := Ideal) (φ := .f32)
    (FloatOps.logistic (F := Ideal) (φ := .f32) (pre x h W U b d (i 0) (col 384 (by omega) (i 1))))
    (FloatOps.tanh (F := Ideal) (φ := .f32) (cell x h c W U b d i))

/-- The two biases may be added in either order around the second product: extended-real addition is commutative
    and associative, infinities included. -/
theorem pre_eq_interleaved (x h : (⟨2, ![R, 128]⟩ : Shape).Idx → EReal) (W U : (⟨2, ![512, 128]⟩ : Shape).Idx → EReal)
    (b d : (⟨1, ![512]⟩ : Shape).Idx → EReal) (r : Fin R) (q : Fin 512) :
    (∑ k : Fin 128, x (ix2 r k) * W (ix2 q k)) + b (ix1 q) + (∑ k : Fin 128, h (ix2 r k) * U (ix2 q k)) + d (ix1 q)
      = pre x h W U b d r q := by
  unfold pre
  rw [add_right_comm (∑ k : Fin 128, x (ix2 r k) * W (ix2 q k)) (b (ix1 q))]

/-- The bit pattern of the single-precision one denotes the number one. -/
theorem one_word : Ideal.ofBits .f32 0x3F800000#32 = 1 := by
  simp [Ideal.ofBits, Ideal.ieee, -EReal.coe_mul]; norm_num

/-- The quotient `1 / (1 + exp (-v))` written with the host's negation, exponential and division is the logistic
    function, at every extended real. -/
theorem logistic_expanded (v : EReal) :
    FloatOps.hostDivf (F := Ideal) (φ := .f32) (FloatOps.ofBits (F := Ideal) .f32 0x3F800000#32)
        (FloatOps.addf (F := Ideal) (φ := .f32) (FloatOps.ofBits (F := Ideal) .f32 0x3F800000#32)
          (FloatOps.hostUnary (F := Ideal) (φ := .f32) .exp (FloatOps.hostNegf (F := Ideal) (φ := .f32) v)))
      = FloatOps.logistic (F := Ideal) (φ := .f32) v := by
  rw [Ideal.ofBits_def, one_word]
  rfl

end Cert.LstmCell

end
-- ==== Proof.KernelBlock.lean ====
/-
  What the kernel's body leaves in one block of 2000 rows.

  The body multiplies the block of aggregated messages by the transposed input weights and the block of hidden
  states by the transposed recurrent weights (two products into a zero accumulator; the narrowing of the operands
  is the identity on extended reals), adds the two bias rows to every row, cuts the 512 columns into the four gates
  and combines them with the block of cell states. Read at an index this is the pre-activation, the new cell state
  and the new hidden state of `LstmCell`, at the array row the block row stands for, whenever the block's entries
  are those of the arrays: the transposed weights at (k, q) the weights at (q, k), the bias rows at (0, q) the
  biases at q.
-/
import proofs.«134043_j46669114638611_1_alg».proof.Proof.Gen.KernelIdeal.Value
import proofs.«134043_j46669114638611_1_alg».proof.Proof.LibPlainDot
import proofs.«134043_j46669114638611_1_alg».proof.Proof.LstmCell
import Idealize.ShloMosaic.Lib.ValueLayout

noncomputable section

namespace Cert.KernelIdeal.Block

open Cert.KernelIdeal Cert.KernelIdeal.Gen Idealize.ShloMosaic Idealize.ShloMosaic.ValueIdx

/-- The body's contraction is the plain rows-by-columns one: 2000 x 128 times 128 x 512. -/
theorem dot_plain : dot_S2000x128_S128x512_S2000x512_1_0_0_1_n_n = DotDims.plain 2000 128 512 := rfl

/-- The gates' pre-activation of a block at (p, q): the two products' sums over the inner index plus the two bias
    rows' entries at column q. -/
theorem gates_apply (P0 P1 : Vec Ideal S2000x128 .f32) (P2 P3 : Vec Ideal S128x512 .f32) (P4 P5 : Vec Ideal S1x512 .f32)
    (p : Fin 2000) (q : Fin 512) :
    k0_pay1 P0 P1 P2 P3 P4 P5 (ix2 p q)
      = (∑ k : Fin 128, P0 (ix2 p k) * P2 (ix2 k q)) + (∑ k : Fin 128, P1 (ix2 p k) * P3 (ix2 k q))
          + P4 (ix2 (0 : Fin 1) q) + P5 (ix2 (0 : Fin 1) q) := by
  unfold k0_pay1
  simp only [shapeCast_self, dot_plain]
  show FloatOps.matmul (F := Ideal) (DotDims.plain 2000 128 512) none (truncf .bf16 P0 bitsLt_bf16_f32) (truncf .bf16 P2 bitsLt_bf16_f32)
        (constant (⟨2, ![2000, 512]⟩ : Shape) .f32 0x00000000#32) (ix2 p q)
      + FloatOps.matmul (F := Ideal) (DotDims.plain 2000 128 512) none (truncf .bf16 P1 bitsLt_bf16_f32) (truncf .bf16 P3 bitsLt_bf16_f32)
        (constant (⟨2, ![2000, 512]⟩ : Shape) .f32 0x00000000#32) (ix2 p q)
      + broadcastTo (⟨2, ![2000, 512]⟩ : Shape) P4 broadcasts_S1x512_S2000x512 (ix2 p q)
      + broadcastTo (⟨2, ![2000, 512]⟩ : Shape) P5 broadcasts_S1x512_S2000x512 (ix2 p q) = _
  rw [PlainDot.matmul_zero_apply, PlainDot.matmul_zero_apply, broadcastTo_1b_ab_apply, broadcastTo_1b_ab_apply]
  rfl

section
variable (P0 P1 P6 : Vec Ideal S2000x128 .f32) (P2 P3 : Vec Ideal S128x512 .f32) (P4 P5 : Vec Ideal S1x512 .f32)
  (X H C : (⟨2, ![100000, 128]⟩ : Shape).Idx → EReal) (W U : (⟨2, ![512, 128]⟩ : Shape).Idx → EReal)
  (b d : (⟨1, ![512]⟩ : Shape).Idx → EReal) (row : Fin 2000 → Fin 100000)
  (hX : ∀ (p : Fin 2000) (k : Fin 128), P0 (ix2 p k) = X (ix2 (row p) k))
  (hH : ∀ (p : Fin 2000) (k : Fin 128), P1 (ix2 p k) = H (ix2 (row p) k))
  (hC : ∀ (p : Fin 2000) (k : Fin 128), P6 (ix2 p k) = C (ix2 (row p) k))
  (hW : ∀ (k : Fin 128) (q : Fin 512), P2 (ix2 k q) = W (ix2 q k))
  (hU : ∀ (k : Fin 128) (q : Fin 512), P3 (ix2 k q) = U (ix2 q k))
  (hb : ∀ q : Fin 512, P4 (ix2 (0 : Fin 1) q) = b (ix1 q))
  (hd : ∀ q : Fin 512, P5 (ix2 (0 : Fin 1) q) = d (ix1 q))
include hX hH hW hU hb hd

/-- A block's pre-activation at (p, q) is the arrays' pre-activation at the block row's array row. -/
theorem pre_block (p : Fin 2000) (q : Fin 512) :
    k0_pay1 P0 P1 P2 P3 P4 P5 (ix2 p q) = LstmCell.pre X H W U b d (row p) q := by
  rw [gates_apply]
  unfold LstmCell.pre
  simp only [hX, hH, hW, hU, hb, hd]

include hC

/-- The block of new cell states is the arrays' new cell state, row for row. -/
theorem cell_block (p : Fin 2000) (j : Fin 128) :
    Value.E8 P0 P1 P2 P3 P4 P5 P6 (ix2 p j) = LstmCell.cell X H C W U b d (ix2 (row p) j) := by
  have e0 : Value.ix8_0 (ix2 p j) = ix2 p (LstmCell.col 128 (by omega) j) :=
    funext fun a => Fin.ext (by match a with | ⟨0, _⟩ => rfl | ⟨1, _⟩ => rfl)
  have e1 : Value.ix8_1 (ix2 p j) = ix2 p j :=
    funext fun a => Fin.ext (by match a with | ⟨0, _⟩ => rfl | ⟨1, _⟩ => rfl)
  have e2 : Value.ix8_2 (ix2 p j) = ix2 p (LstmCell.col 0 (by omega) j) :=
    funext fun a => Fin.ext (by match a with | ⟨0, _⟩ => rfl | ⟨1, _⟩ => rfl)
  have e3 : Value.ix8_3 (ix2 p j) = ix2 p (LstmCell.col 256 (by omega) j) :=
    funext fun a => Fin.ext (by match a with | ⟨0, _⟩ => rfl | ⟨1, _⟩ => rfl)
  show FloatOps.addf (FloatOps.mulf (FloatOps.logistic (k0_pay1 P0 P1 P2 P3 P4 P5 (Value.ix8_0 (ix2 p j)))) (P6 (Value.ix8_1 (ix2 p j))))
      (FloatOps.mulf (FloatOps.logistic (k0_pay1 P0 P1 P2 P3 P4 P5 (Value.ix8_2 (ix2 p j))))
        (FloatOps.tanh (k0_pay1 P0 P1 P2 P3 P4 P5 (Value.ix8_3 (ix2 p j))))) = _
  rw [e0, e1, e2, e3, pre_block P0 P1 P2 P3 P4 P5 X H W U b d row hX hH hW hU hb hd,
    pre_block P0 P1 P2 P3 P4 P5 X H W U b d row hX hH hW hU hb hd,
    pre_block P0 P1 P2 P3 P4 P5 X H W U b d row hX hH hW hU hb hd, hC]
  rfl

/-- The block of new hidden states is the arrays' new hidden state, row for row. -/
theorem hidden_block (p : Fin 2000) (j : Fin 128) :
    Value.E7 P0 P1 P2 P3 P4 P5 P6 (ix2 p j) = LstmCell.hidden X H C W U b d (ix2 (row p) j) := by
  have e0 : Value.ix7_0 (ix2 p j) = ix2 p (LstmCell.col 384 (by omega) j) :=
    funext fun a => Fin.ext (by match a with | ⟨0, _⟩ => rfl | ⟨1, _⟩ => rfl)
  have e1 : Value.ix7_1 (ix2 p j) = ix2 p (LstmCell.col 128 (by omega) j) :=
    funext fun a => Fin.ext (by match a with | ⟨0, _⟩ => rfl | ⟨1, _⟩ => rfl)
  have e2 : Value.ix7_2 (ix2 p j) = ix2 p j :=
    funext fun a => Fin.ext (by match a with | ⟨0, _⟩ => rfl | ⟨1, _⟩ => rfl)
  have e3 : Value.ix7_3 (ix2 p j) = ix2 p (LstmCell.col 0 (by omega) j) :=
    funext fun a => Fin.ext (by match a with | ⟨0, _⟩ => rfl | ⟨1, _⟩ => rfl)
  have e4 : Value.ix7_4 (ix2 p j) = ix2 p (LstmCell.col 256 (by omega) j) :=
    funext fun a => Fin.ext (by match a with | ⟨0, _⟩ => rfl | ⟨1, _⟩ => rfl)
  show FloatOps.mulf (FloatOps.logistic (k0_pay1 P0 P1 P2 P3 P4 P5 (Value.ix7_0 (ix2 p j))))
      (FloatOps.tanh (FloatOps.addf
        (FloatOps.mulf (FloatOps.logistic (k0_pay1 P0 P1 P2 P3 P4 P5 (Value.ix7_1 (ix2 p j)))) (P6 (Value.ix7_2 (ix2 p j))))
        (FloatOps.mulf (FloatOps.logistic (k0_pay1 P0 P1 P2 P3 P4 P5 (Value.ix7_3 (ix2 p j))))
          (FloatOps.tanh (k0_pay1 P0 P1 P2 P3 P4 P5 (Value.ix7_4 (ix2 p j))))))) = _
  rw [e0, e1, e2, e3, e4, pre_block P0 P1 P2 P3 P4 P5 X H W U b d row hX hH hW hU hb hd,
    pre_block P0 P1 P2 P3 P4 P5 X H W U b d row hX hH hW hU hb hd,
    pre_block P0 P1 P2 P3 P4 P5 X H W U b d row hX hH hW hU hb hd,
    pre_block P0 P1 P2 P3 P4 P5 X H W U b d row hX hH hW hU hb hd, hC]
  rfl

end

end Cert.KernelIdeal.Block

end
-- ==== Proof.KernelEntry.lean ====
/-
  The arrays the kernel's region finds when it starts.

  Before the kernel runs, the host gathers the edge rows named by the edge ids and adds each into the row named by
  its vertex id: the aggregated messages, one row per vertex. It also transposes the two weight matrices and lays
  the two bias vectors out as rows. These five arrays, and the hidden and cell states as launched, are what the
  kernel's windows read; the two results are then stated as `LstmCell.hidden` and `LstmCell.cell` of them.
-/
import proofs.«134043_j46669114638611_1_alg».proof.Proof.Gen.KernelIdeal.Frame
import proofs.«134043_j46669114638611_1_alg».proof.Proof.LstmCell
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The arrays the region finds -/

/-- The aggregated messages: the rows of `x` named by the edge ids `e` (a negative id counted from the end),
    each added into the row of a zero array named by the matching vertex id in `v`. -/
def msg (x : (⟨S800000x128, .f32⟩ : BufTy).Contents (Elt Ideal)) (e v : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 v)
    (Host.gather gather_S800000x128_S1600000x1_S1600000x128_1_0_n_n_0_1_1128 x
      (broadcastInDim S1600000x1 ![0] bcast_S1600000_S1600000x1_0
        (select (cmpi .slt e (broadcastInDim S1600000 ![] bcast_S_S1600000 (constantI S_ 32 0#32)))
          (addi e (broadcastInDim S1600000 ![] bcast_S_S1600000 (constantI S_ 32 800000#32))) e)))

/-- The aggregated messages of this run's arguments. -/
def msgArr (c : Dev nD) : (⟨2, ![100000, 128]⟩ : Shape).Idx → EReal :=
  msg (m ((c : Thread nD τ).loc main_arg0)) (m ((c : Thread nD τ).loc main_arg7)) (m ((c : Thread nD τ).loc main_arg8))

/-- The new hidden states of this run's arguments. -/
def hiddenArr (c : Dev nD) : (⟨2, ![100000, 128]⟩ : Shape).Idx → EReal :=
  LstmCell.hidden (msgArr m c) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))

/-- The new cell states of this run's arguments. -/
def cellArr (c : Dev nD) : (⟨2, ![100000, 128]⟩ : Shape).Idx → EReal :=
  LstmCell.cell (msgArr m c) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6))

/-- The first window's array is the aggregated messages. -/
theorem V_msg (c : Dev nD) : V m c main_v9 = msgArr m c := by
  unfold msgArr msg
  dsimp only [V, hostOps0]
  after_results
  all_goals rfl

/-- The fourth window's array is the input weights transposed. -/
theorem V_wih (c : Dev nD) :
    V m c main_v10 = transpose S128x512 [1, 0] (m ((c : Thread nD τ).loc main_arg3)) transposes_S512x128_S128x512_1_0 := by
  dsimp only [V, hostOps0]
  after_results
  all_goals rfl

/-- The fifth window's array is the recurrent weights transposed. -/
theorem V_whh (c : Dev nD) :
    V m c main_v11 = transpose S128x512 [1, 0] (m ((c : Thread nD τ).loc main_arg4)) transposes_S512x128_S128x512_1_0 := by
  dsimp only [V, hostOps0]
  after_results
  all_goals rfl

/-- The sixth window's array is the first bias as one row. -/
theorem V_bih (c : Dev nD) :
    V m c main_v12 = shapeCast S1x512 (m ((c : Thread nD τ).loc main_arg5)) shapeCasts_S512_S1x512 := by
  dsimp only [V, hostOps0]
  after_results
  all_goals rfl

/-- The seventh window's array is the second bias as one row. -/
theorem V_bhh (c : Dev nD) :
    V m c main_v13 = shapeCast S1x512 (m ((c : Thread nD τ).loc main_arg6)) shapeCasts_S512_S1x512 := by
  dsimp only [V, hostOps0]
  after_results
  all_goals rfl

end Cert.KernelIdeal.Whole

end
-- ==== Proof.KernelIndex.lean ====
/-
  Where each window's block lies at each of the 50 grid points.

  The three row-blocked inputs and the two results move together, one block of 2000 rows per point, in the one
  column block there is; the weights and the bias rows are read whole at every point. Every block of rows is some
  point's. All of it is decided over the 50 points.
-/
import proofs.«134043_j46669114638611_1_alg».proof.Proof.Gen.KernelIdeal.Frame

noncomputable section

namespace Cert.KernelIdeal.Whole

open Cert.KernelIdeal Cert.KernelIdeal.Gen Idealize.ShloMosaic Idealize.ShloMosaic.TcCoe Idealize.SL.Sem

/-! ## Where each window's block lies -/

/-- The result windows step one block of rows per point and stay in column block 0. -/
theorem idx_out : ∀ t : Fin cfg0.N, win0_7.index t (0 : Fin 2) ≤ 49 ∧ win0_7.index t (1 : Fin 2) = 0
    ∧ win0_8.index t (0 : Fin 2) = win0_7.index t (0 : Fin 2) ∧ win0_8.index t (1 : Fin 2) = 0 :=
  (by decide +kernel : ∀ t : Fin grid0.N, _)

/-- The three row-blocked inputs move with the results. -/
theorem idx_rows : ∀ t : Fin cfg0.N, win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0 :=
  (by decide +kernel : ∀ t : Fin grid0.N, _)

/-- The weights and the bias rows are read whole at every point. -/
theorem idx_fixed : ∀ t : Fin cfg0.N, win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Every block of rows is some point's. -/
theorem idx_onto : ∀ q : Fin 50, ∃ t : Fin cfg0.N, win0_7.index t (0 : Fin 2) = q.val :=
  (by decide +kernel : ∀ q : Fin 50, ∃ t : Fin grid0.N, win0_7.index t (0 : Fin 2) = q.val)

/-- The array row that row `p` of point `t`'s block stands for. -/
def row (t : Fin cfg0.N) (p : Fin 2000) : Fin 100000 :=
  ⟨win0_7.index t (0 : Fin 2) * 2000 + p.val, by have h := (idx_out t).1; have := p.isLt; omega⟩

end Cert.KernelIdeal.Whole

end
-- ==== Proof.KernelReads.lean ====
/-
  Each window's block at a grid point, entry by entry.

  Point t's block of a row-blocked array holds rows 2000 t .. 2000 t + 1999; the weights' and the bias rows' one
  block is the whole array. So an entry of a loaded block is an entry of the array the region found: of the
  aggregated messages, of the hidden and cell states as launched, of a weight matrix at the transposed index, of a
  bias vector at the column.
-/
import proofs.«134043_j46669114638611_1_alg».proof.Proof.KernelEntry
import proofs.«134043_j46669114638611_1_alg».proof.Proof.KernelIndex
import Idealize.ShloMosaic.Lib.Pipeline.Value
import Idealize.ShloMosaic.Lib.ValueLayout

noncomputable section

namespace Cert.KernelIdeal.Whole

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## Where a block index lands in its array, and a block read through it (for any array) -/

theorem emb0 (t : Fin cfg0.N) (p : Fin 2000) (k : Fin 128) :
    ((cfg0.win 0).blk t).view.emb (ix2 p k) = ix2 (row t p) k := by
  funext a
  apply Fin.ext
  obtain ⟨e0, e1, -⟩ := idx_rows t
  match a with
  | ⟨0, _⟩ => show win0_0.index t (0 : Fin 2) * 2000 + 1 * p.val = win0_7.index t (0 : Fin 2) * 2000 + p.val; omega
  | ⟨1, _⟩ => show win0_0.index t (1 : Fin 2) * 128 + 1 * k.val = k.val; omega

/-- Block `t` of a row-blocked array, read at (p, k), is the array at (2000 t + p, k). -/
theorem read0 (A : Vec Ideal S100000x128 .f32) (t : Fin cfg0.N) (p : Fin 2000) (k : Fin 128) :
    ((cfg0.win 0).blk t).view.read (Elt Ideal) A (ix2 p k) = A (ix2 (row t p) k) :=
  show A (((cfg0.win 0).blk t).view.emb (ix2 p k)) = _ from congrArg A (emb0 t p k)

theorem emb1 (t : Fin cfg0.N) (p : Fin 2000) (k : Fin 128) :
    ((cfg0.win 1).blk t).view.emb (ix2 p k) = ix2 (row t p) k := by
  funext a
  apply Fin.ext
  obtain ⟨-, -, e0, e1, -⟩ := idx_rows t
  match a with
  | ⟨0, _⟩ => show win0_1.index t (0 : Fin 2) * 2000 + 1 * p.val = win0_7.index t (0 : Fin 2) * 2000 + p.val; omega
  | ⟨1, _⟩ => show win0_1.index t (1 : Fin 2) * 128 + 1 * k.val = k.val; omega

/-- Block `t` of a row-blocked array, read at (p, k), is the array at (2000 t + p, k). -/
theorem read1 (A : Vec Ideal S100000x128 .f32) (t : Fin cfg0.N) (p : Fin 2000) (k : Fin 128) :
    ((cfg0.win 1).blk t).view.read (Elt Ideal) A (ix2 p k) = A (ix2 (row t p) k) :=
  show A (((cfg0.win 1).blk t).view.emb (ix2 p k)) = _ from congrArg A (emb1 t p k)

theorem emb2 (t : Fin cfg0.N) (p : Fin 2000) (k : Fin 128) :
    ((cfg0.win 2).blk t).view.emb (ix2 p k) = ix2 (row t p) k := by
  funext a
  apply Fin.ext
  obtain ⟨-, -, -, -, e0, e1⟩ := idx_rows t
  match a with
  | ⟨0, _⟩ => show win0_2.index t (0 : Fin 2) * 2000 + 1 * p.val = win0_7.index t (0 : Fin 2) * 2000 + p.val; omega
  | ⟨1, _⟩ => show win0_2.index t (1 : Fin 2) * 128 + 1 * k.val = k.val; omega

/-- Block `t` of a row-blocked array, read at (p, k), is the array at (2000 t + p, k). -/
theorem read2 (A : Vec Ideal S100000x128 .f32) (t : Fin cfg0.N) (p : Fin 2000) (k : Fin 128) :
    ((cfg0.win 2).blk t).view.read (Elt Ideal) A (ix2 p k) = A (ix2 (row t p) k) :=
  show A (((cfg0.win 2).blk t).view.emb (ix2 p k)) = _ from congrArg A (emb2 t p k)

theorem emb3 (t : Fin cfg0.N) (k : Fin 128) (q : Fin 512) :
    ((cfg0.win 3).blk t).view.emb (ix2 k q) = ix2 k q := by
  funext a
  apply Fin.ext
  obtain ⟨e0, e1, -⟩ := idx_fixed t
  match a with
  | ⟨0, _⟩ => show win0_3.index t (0 : Fin 2) * 128 + 1 * k.val = k.val; omega
  | ⟨1, _⟩ => show win0_3.index t (1 : Fin 2) * 512 + 1 * q.val = q.val; omega

/-- The one block of a transposed weight array is the array. -/
theorem read3 (A : Vec Ideal S128x512 .f32) (t : Fin cfg0.N) (k : Fin 128) (q : Fin 512) :
    ((cfg0.win 3).blk t).view.read (Elt Ideal) A (ix2 k q) = A (ix2 k q) :=
  show A (((cfg0.win 3).blk t).view.emb (ix2 k q)) = _ from congrArg A (emb3 t k q)

theorem emb4 (t : Fin cfg0.N) (k : Fin 128) (q : Fin 512) :
    ((cfg0.win 4).blk t).view.emb (ix2 k q) = ix2 k q := by
  funext a
  apply Fin.ext
  obtain ⟨-, -, e0, e1, -⟩ := idx_fixed t
  match a with
  | ⟨0, _⟩ => show win0_4.index t (0 : Fin 2) * 128 + 1 * k.val = k.val; omega
  | ⟨1, _⟩ => show win0_4.index t (1 : Fin 2) * 512 + 1 * q.val = q.val; omega

/-- The one block of a transposed weight array is the array. -/
theorem read4 (A : Vec Ideal S128x512 .f32) (t : Fin cfg0.N) (k : Fin 128) (q : Fin 512) :
    ((cfg0.win 4).blk t).view.read (Elt Ideal) A (ix2 k q) = A (ix2 k q) :=
  show A (((cfg0.win 4).blk t).view.emb (ix2 k q)) = _ from congrArg A (emb4 t k q)

theorem emb5 (t : Fin cfg0.N) (q : Fin 512) :
    ((cfg0.win 5).blk t).view.emb (ix2 (0 : Fin 1) q) = ix2 (0 : Fin 1) q := by
  funext a
  apply Fin.ext
  obtain ⟨-, -, -, -, e0, e1, -⟩ := idx_fixed t
  match a with
  | ⟨0, _⟩ => show win0_5.index t (0 : Fin 2) * 1 + 1 * 0 = 0; omega
  | ⟨1, _⟩ => show win0_5.index t (1 : Fin 2) * 512 + 1 * q.val = q.val; omega

/-- The one block of a bias row is the row. -/
theorem read5 (A : Vec Ideal S1x512 .f32) (t : Fin cfg0.N) (q : Fin 512) :
    ((cfg0.win 5).blk t).view.read (Elt Ideal) A (ix2 (0 : Fin 1) q) = A (ix2 (0 : Fin 1) q) :=
  show A (((cfg0.win 5).blk t).view.emb (ix2 (0 : Fin 1) q)) = _ from congrArg A (emb5 t q)

theorem emb6 (t : Fin cfg0.N) (q : Fin 512) :
    ((cfg0.win 6).blk t).view.emb (ix2 (0 : Fin 1) q) = ix2 (0 : Fin 1) q := by
  funext a
  apply Fin.ext
  obtain ⟨-, -, -, -, -, -, e0, e1⟩ := idx_fixed t
  match a with
  | ⟨0, _⟩ => show win0_6.index t (0 : Fin 2) * 1 + 1 * 0 = 0; omega
  | ⟨1, _⟩ => show win0_6.index t (1 : Fin 2) * 512 + 1 * q.val = q.val; omega

/-- The one block of a bias row is the row. -/
theorem read6 (A : Vec Ideal S1x512 .f32) (t : Fin cfg0.N) (q : Fin 512) :
    ((cfg0.win 6).blk t).view.read (Elt Ideal) A (ix2 (0 : Fin 1) q) = A (ix2 (0 : Fin 1) q) :=
  show A (((cfg0.win 6).blk t).view.emb (ix2 (0 : Fin 1) q)) = _ from congrArg A (emb6 t q)

theorem emb7 (t : Fin cfg0.N) (j : ((cfg0.win 7).xblock (grid0.coords t)).Idx) :
    ((cfg0.win 7).blk t).view.emb j
      = ix2 (row t ((cfg0.win 7).xinj (grid0.coords t) j 0)) ((cfg0.win 7).xinj (grid0.coords t) j 1) := by
  funext a
  apply Fin.ext
  obtain ⟨-, e1, -⟩ := idx_out t
  match a with
  | ⟨0, _⟩ => show win0_7.index t (0 : Fin 2) * 2000 + 1 * (j 0).val = win0_7.index t (0 : Fin 2) * 2000 + (j 0).val; omega
  | ⟨1, _⟩ => show win0_7.index t (1 : Fin 2) * 128 + 1 * (j 1).val = (j 1).val; omega

/-- Block `t` of a result array, read at a block index, is the array at the row and column it stands for. -/
theorem read7 (A : Vec Ideal S100000x128 .f32) (t : Fin cfg0.N) (j : ((cfg0.win 7).xblock (grid0.coords t)).Idx) :
    ((cfg0.win 7).blk t).view.read (Elt Ideal) A j
      = A (ix2 (row t ((cfg0.win 7).xinj (grid0.coords t) j 0)) ((cfg0.win 7).xinj (grid0.coords t) j 1)) :=
  show A (((cfg0.win 7).blk t).view.emb j) = _ from congrArg A (emb7 t j)

theorem emb8 (t : Fin cfg0.N) (j : ((cfg0.win 8).xblock (grid0.coords t)).Idx) :
    ((cfg0.win 8).blk t).view.emb j
      = ix2 (row t ((cfg0.win 8).xinj (grid0.coords t) j 0)) ((cfg0.win 8).xinj (grid0.coords t) j 1) := by
  funext a
  apply Fin.ext
  obtain ⟨-, -, e0, e1⟩ := idx_out t
  match a with
  | ⟨0, _⟩ => show win0_8.index t (0 : Fin 2) * 2000 + 1 * (j 0).val = win0_7.index t (0 : Fin 2) * 2000 + (j 0).val; omega
  | ⟨1, _⟩ => show win0_8.index t (1 : Fin 2) * 128 + 1 * (j 1).val = (j 1).val; omega

/-- Block `t` of a result array, read at a block index, is the array at the row and column it stands for. -/
theorem read8 (A : Vec Ideal S100000x128 .f32) (t : Fin cfg0.N) (j : ((cfg0.win 8).xblock (grid0.coords t)).Idx) :
    ((cfg0.win 8).blk t).view.read (Elt Ideal) A j
      = A (ix2 (row t ((cfg0.win 8).xinj (grid0.coords t) j 0)) ((cfg0.win 8).xinj (grid0.coords t) j 1)) :=
  show A (((cfg0.win 8).blk t).view.emb j) = _ from congrArg A (emb8 t j)

/-! ## Each input block's entries -/

theorem msg_blk (c : Dev nD) (t : Fin cfg0.N) (p : Fin 2000) (k : Fin 128) :
    (iblk m c 0 t : Vec Ideal S2000x128 .f32) (ix2 p k) = msgArr m c (ix2 (row t p) k) := by
  have hA : V m c (Pipeline.arrRef spec0 0) = msgArr m c := V_msg m c
  unfold iblk
  rw [hA]
  exact read0 (msgArr m c) t p k

theorem hid_blk (c : Dev nD) (t : Fin cfg0.N) (p : Fin 2000) (k : Fin 128) :
    (iblk m c 1 t : Vec Ideal S2000x128 .f32) (ix2 p k) = m ((c : Thread nD τ).loc main_arg1) (ix2 (row t p) k) := by
  have hA : V m c (Pipeline.arrRef spec0 1) = m ((c : Thread nD τ).loc main_arg1) := V_main_arg1 m c
  unfold iblk
  rw [hA]
  exact read1 (m ((c : Thread nD τ).loc main_arg1)) t p k

theorem cel_blk (c : Dev nD) (t : Fin cfg0.N) (p : Fin 2000) (k : Fin 128) :
    (iblk m c 2 t : Vec Ideal S2000x128 .f32) (ix2 p k) = m ((c : Thread nD τ).loc main_arg2) (ix2 (row t p) k) := by
  have hA : V m c (Pipeline.arrRef spec0 2) = m ((c : Thread nD τ).loc main_arg2) := V_main_arg2 m c
  unfold iblk
  rw [hA]
  exact read2 (m ((c : Thread nD τ).loc main_arg2)) t p k

theorem wih_blk (c : Dev nD) (t : Fin cfg0.N) (k : Fin 128) (q : Fin 512) :
    (iblk m c 3 t : Vec Ideal S128x512 .f32) (ix2 k q) = m ((c : Thread nD τ).loc main_arg3) (ix2 q k) := by
  have hA : V m c (Pipeline.arrRef spec0 3)
      = transpose S128x512 [1, 0] (m ((c : Thread nD τ).loc main_arg3)) transposes_S512x128_S128x512_1_0 := V_wih m c
  unfold iblk
  rw [hA]
  exact (read3 (transpose S128x512 [1, 0] (m ((c : Thread nD τ).loc main_arg3)) transposes_S512x128_S128x512_1_0) t k q).trans
    (transpose_ix2_apply (m ((c : Thread nD τ).loc main_arg3)) transposes_S512x128_S128x512_1_0 k q)

theorem whh_blk (c : Dev nD) (t : Fin cfg0.N) (k : Fin 128) (q : Fin 512) :
    (iblk m c 4 t : Vec Ideal S128x512 .f32) (ix2 k q) = m ((c : Thread nD τ).loc main_arg4) (ix2 q k) := by
  have hA : V m c (Pipeline.arrRef spec0 4)
      = transpose S128x512 [1, 0] (m ((c : Thread nD τ).loc main_arg4)) transposes_S512x128_S128x512_1_0 := V_whh m c
  unfold iblk
  rw [hA]
  exact (read4 (transpose S128x512 [1, 0] (m ((c : Thread nD τ).loc main_arg4)) transposes_S512x128_S128x512_1_0) t k q).trans
    (transpose_ix2_apply (m ((c : Thread nD τ).loc main_arg4)) transposes_S512x128_S128x512_1_0 k q)

theorem bih_blk (c : Dev nD) (t : Fin cfg0.N) (q : Fin 512) :
    (iblk m c 5 t : Vec Ideal S1x512 .f32) (ix2 (0 : Fin 1) q) = m ((c : Thread nD τ).loc main_arg5) (ix1 q) := by
  have hA : V m c (Pipeline.arrRef spec0 5)
      = shapeCast S1x512 (m ((c : Thread nD τ).loc main_arg5)) shapeCasts_S512_S1x512 := V_bih m c
  unfold iblk
  rw [hA]
  exact (read5 (shapeCast S1x512 (m ((c : Thread nD τ).loc main_arg5)) shapeCasts_S512_S1x512) t q).trans
    (shapeCast_a_1a_apply (m ((c : Thread nD τ).loc main_arg5)) shapeCasts_S512_S1x512 0 q)

theorem bhh_blk (c : Dev nD) (t : Fin cfg0.N) (q : Fin 512) :
    (iblk m c 6 t : Vec Ideal S1x512 .f32) (ix2 (0 : Fin 1) q) = m ((c : Thread nD τ).loc main_arg6) (ix1 q) := by
  have hA : V m c (Pipeline.arrRef spec0 6)
      = shapeCast S1x512 (m ((c : Thread nD τ).loc main_arg6)) shapeCasts_S512_S1x512 := V_bhh m c
  unfold iblk
  rw [hA]
  exact (read6 (shapeCast S1x512 (m ((c : Thread nD τ).loc main_arg6)) shapeCasts_S512_S1x512) t q).trans
    (shapeCast_a_1a_apply (m ((c : Thread nD τ).loc main_arg6)) shapeCasts_S512_S1x512 0 q)

theorem hz : (![0, 0] : Fin 2 → Nat) = fun _ => 0 := funext fun a => by fin_cases a <;> rfl

end Cert.KernelIdeal.Whole

end
-- ==== Proof.KernelArray.lean ====
/-
  The two arrays the kernel's program ends with, each as one function of the arguments.

  The kernel walks the 100000 vertex rows in 50 blocks of 2000. At point t its body leaves, in the two result
  windows' buffers, rows 2000 t .. 2000 t + 1999 of the new hidden and the new cell states of the whole arrays
  (`KernelBlock` over the entries of `KernelReads`); each point writes its block back, the 50 blocks cover every
  row, so each result array ends as `LstmCell.hidden` / `LstmCell.cell` of the aggregated messages and the other
  arguments, the arguments unchanged.
-/
import proofs.«134043_j46669114638611_1_alg».proof.Proof.KernelBlock
import proofs.«134043_j46669114638611_1_alg».proof.Proof.KernelReads

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The new hidden states (result window 7) -/

/-- What point `t`'s body leaves in result window 7's buffer, at a block index: the new hidden state at the array row and
    column the index stands for. -/
theorem point7 (c : Dev nD) (t : Fin cfg0.N) (y : S2000x128.Idx) :
    out0_7 (iblk m c 0 t) (iblk m c 1 t) (iblk m c 2 t) (iblk m c 3 t) (iblk m c 4 t) (iblk m c 5 t) (iblk m c 6 t) y
      = hiddenArr m c (ix2 (row t (y 0)) (y 1)) := by
  obtain ⟨p, k, rfl⟩ : ∃ (p : Fin 2000) (k : Fin 128), y = ix2 p k := ⟨y 0, y 1, eq_ix2 y⟩
  unfold out0_7 hiddenArr
  simp only [View.ld_unit_zero (S := S2000x128) hz, View.ld_unit_zero (S := S128x512) hz, View.ld_unit_zero (S := S1x512) hz]
  refine (Value.canon7_eq (F := Ideal) (iblk m c 0 t) (iblk m c 1 t) (iblk m c 3 t) (iblk m c 4 t) (iblk m c 5 t) (iblk m c 6 t)
    (iblk m c 2 t) (ix2 p k)).trans ?_
  exact Block.hidden_block (iblk m c 0 t) (iblk m c 1 t) (iblk m c 2 t) (iblk m c 3 t) (iblk m c 4 t) (iblk m c 5 t) (iblk m c 6 t)
    (msgArr m c) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6)) (row t)
    (msg_blk m c t) (hid_blk m c t) (cel_blk m c t) (wih_blk m c t) (whh_blk m c t) (bih_blk m c t) (bhh_blk m c t) p k

/-- What point `t` writes back to result window 7's array is block `t` of that function. -/
theorem flushed7_eq (c : Dev nD) (t : Fin cfg0.N) :
    (dats m 0 c).flushed 7 t = ((cfg0.win 7).blk t).view.read (Elt Ideal) (hiddenArr m c) := by
  rw [Value.flushed7]
  funext j
  exact (point7 m c t ((cfg0.win 7).xinj (grid0.coords t) j)).trans (read7 (hiddenArr m c) t j).symm

/-- An index of the array is in point `t`'s block iff each coordinate is in the block's range on its axis. -/
theorem mem_blk7 (t : Fin cfg0.N) (i : S100000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v14_0).slice (win0_7.rect t)).set ↔ _
  rw [View.set_slice_whole, Rect.mem_set_unit]
  exact Iff.rfl

/-- Every index of the array is in some point's block: row r is in block r / 2000. -/
theorem cover7 (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  obtain ⟨t, ht⟩ := idx_onto ⟨(i 0).val / 2000, by omega⟩
  have ht' : win0_7.index t (0 : Fin 2) = (i 0).val / 2000 := ht
  obtain ⟨-, e1, e2, e3⟩ := idx_out t
  refine ⟨t, flush0_7 t, ?_⟩
  rw [mem_blk7]
  intro a
  match a with
  | ⟨0, _⟩ =>
    show win0_7.index t (0 : Fin 2) * 2000 ≤ (i 0).val ∧ (i 0).val < win0_7.index t (0 : Fin 2) * 2000 + 2000
    omega
  | ⟨1, _⟩ =>
    show win0_7.index t (1 : Fin 2) * 128 ≤ (i 1).val ∧ (i 1).val < win0_7.index t (1 : Fin 2) * 128 + 128
    omega

/-- The array after the run. -/
theorem final7 (c : Dev nD) : (dats m 0 c).arrAt 7 cfg0.N = hiddenArr m c :=
  (dats m 0 c).arrAt_eq_of_cover 7 (hiddenArr m c) (fun t _ => flushed7_eq m c t) cover7

/-! ## The new cell states (result window 8) -/

/-- What point `t`'s body leaves in result window 8's buffer, at a block index: the new cell state at the array row and
    column the index stands for. -/
theorem point8 (c : Dev nD) (t : Fin cfg0.N) (y : S2000x128.Idx) :
    out0_8 (iblk m c 0 t) (iblk m c 1 t) (iblk m c 2 t) (iblk m c 3 t) (iblk m c 4 t) (iblk m c 5 t) (iblk m c 6 t) y
      = cellArr m c (ix2 (row t (y 0)) (y 1)) := by
  obtain ⟨p, k, rfl⟩ : ∃ (p : Fin 2000) (k : Fin 128), y = ix2 p k := ⟨y 0, y 1, eq_ix2 y⟩
  unfold out0_8 cellArr
  simp only [View.ld_unit_zero (S := S2000x128) hz, View.ld_unit_zero (S := S128x512) hz, View.ld_unit_zero (S := S1x512) hz]
  refine (Value.canon8_eq (F := Ideal) (iblk m c 0 t) (iblk m c 1 t) (iblk m c 3 t) (iblk m c 4 t) (iblk m c 5 t) (iblk m c 6 t)
    (iblk m c 2 t) (ix2 p k)).trans ?_
  exact Block.cell_block (iblk m c 0 t) (iblk m c 1 t) (iblk m c 2 t) (iblk m c 3 t) (iblk m c 4 t) (iblk m c 5 t) (iblk m c 6 t)
    (msgArr m c) (m ((c : Thread nD τ).loc main_arg1)) (m ((c : Thread nD τ).loc main_arg2))
    (m ((c : Thread nD τ).loc main_arg3)) (m ((c : Thread nD τ).loc main_arg4))
    (m ((c : Thread nD τ).loc main_arg5)) (m ((c : Thread nD τ).loc main_arg6)) (row t)
    (msg_blk m c t) (hid_blk m c t) (cel_blk m c t) (wih_blk m c t) (whh_blk m c t) (bih_blk m c t) (bhh_blk m c t) p k

/-- What point `t` writes back to result window 8's array is block `t` of that function. -/
theorem flushed8_eq (c : Dev nD) (t : Fin cfg0.N) :
    (dats m 0 c).flushed 8 t = ((cfg0.win 8).blk t).view.read (Elt Ideal) (cellArr m c) := by
  rw [Value.flushed8]
  funext j
  exact (point8 m c t ((cfg0.win 8).xinj (grid0.coords t) j)).trans (read8 (cellArr m c) t j).symm

/-- An index of the array is in point `t`'s block iff each coordinate is in the block's range on its axis. -/
theorem mem_blk8 (t : Fin cfg0.N) (i : S100000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v14_1).slice (win0_8.rect t)).set ↔ _
  rw [View.set_slice_whole, Rect.mem_set_unit]
  exact Iff.rfl

/-- Every index of the array is in some point's block: row r is in block r / 2000. -/
theorem cover8 (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ := idx_onto ⟨(i 0).val / 2000, by omega⟩
  have ht' : win0_7.index t (0 : Fin 2) = (i 0).val / 2000 := ht
  obtain ⟨-, e1, e2, e3⟩ := idx_out t
  refine ⟨t, flush0_8 t, ?_⟩
  rw [mem_blk8]
  intro a
  match a with
  | ⟨0, _⟩ =>
    show win0_8.index t (0 : Fin 2) * 2000 ≤ (i 0).val ∧ (i 0).val < win0_8.index t (0 : Fin 2) * 2000 + 2000
    omega
  | ⟨1, _⟩ =>
    show win0_8.index t (1 : Fin 2) * 128 ≤ (i 1).val ∧ (i 1).val < win0_8.index t (1 : Fin 2) * 128 + 128
    omega

/-- The array after the run. -/
theorem final8 (c : Dev nD) : (dats m 0 c).arrAt 8 cfg0.N = cellArr m c :=
  (dats m 0 c).arrAt_eq_of_cover 8 (cellArr m c) (fun t _ => flushed8_eq m c t) cover8

/-! ## The run, read -/

/-- Every weakly fair execution ends with the first result at the new hidden states, the second at the new cell
    states, and the arguments as launched. -/
theorem run : θ_run defs (onTc (τ := τ) (main (F := Ideal))) ⟨m, fun _ => 0, ρ⟩ fun r => ∀ c : Dev nD,
      r.2.mem ((c : Thread nD τ).loc main_v14_0) = hiddenArr m c
      ∧ r.2.mem ((c : Thread nD τ).loc main_v14_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final7 m c), (h c).2.1.trans (final8 m c), (h c).2.2⟩)
    (Value.run_blocks m ρ)

end Cert.KernelIdeal.Whole

end
-- ==== Proof.ReferenceCell.lean ====
/-
  The reference's two results, read at an index.

  The reference aggregates the messages as the kernel's program does, multiplies them by the transposed input
  weights, adds the first bias, adds the hidden states' product with the transposed recurrent weights, adds the
  second bias, cuts the 512 columns into the four gates, spells the logistic function as 1 / (1 + exp (-v)) and
  combines the gates with the cell states. At an index this is `LstmCell.cell` and `LstmCell.hidden` of the aggregated
  messages and the other arguments: the biases are added in another order than there (extended-real addition is
  commutative and associative), and the spelled-out quotient is the logistic function at every extended real.
-/
import proofs.«134043_j46669114638611_1_alg».proof.Proof.Gen.ReferenceIdeal.Read
import proofs.«134043_j46669114638611_1_alg».proof.Proof.LstmCell

noncomputable section

namespace Cert.ReferenceIdeal.Cell

open Cert.ReferenceIdeal Cert.ReferenceIdeal.Read Idealize.ShloMosaic Idealize.ShloMosaic.ValueIdx

variable (x0 : (⟨S800000x128, .f32⟩ : BufTy).Contents (Elt Ideal)) (x1 x2 : (⟨S100000x128, .f32⟩ : BufTy).Contents (Elt Ideal))
  (x3 x4 : (⟨S512x128, .f32⟩ : BufTy).Contents (Elt Ideal)) (x5 x6 : (⟨S512, .f32⟩ : BufTy).Contents (Elt Ideal))
  (x7 x8 : (⟨S1600000, .i32⟩ : BufTy).Contents (Elt Ideal))

/-- The summed pre-activation at (r, q) is `LstmCell.pre` of the aggregated messages. -/
theorem gates_apply (r : Fin 100000) (q : Fin 512) :
    val_main_v20 (F := Ideal) x0 x1 x3 x4 x5 x6 x7 x8 (ix2 r q)
      = LstmCell.pre (val_main_v9 (F := Ideal) x0 x7 x8) x1 x3 x4 x5 x6 r q := by
  rw [val_main_v20_apply, val_main_v17_apply, val_main_v14_apply, val_main_v11_apply, val_main_v16_apply,
    val_main_v13_apply, val_main_v12_apply, val_main_v19_apply, val_main_v18_apply]
  simp only [val_main_v10_apply, val_main_v15_apply]
  have l1 : ∀ k : Fin 128, lidx_main_v11 (ix2 r q) k = ix2 r k := fun k =>
    funext fun a => Fin.ext (by match a with | ⟨0, _⟩ => rfl | ⟨1, _⟩ => rfl)
  have r1 : ∀ k : Fin 128, idx_main_v10 (ridx_main_v11 (ix2 r q) k) = ix2 q k := fun k =>
    funext fun a => Fin.ext (by match a with | ⟨0, _⟩ => rfl | ⟨1, _⟩ => rfl)
  have l2 : ∀ k : Fin 128, lidx_main_v16 (ix2 r q) k = ix2 r k := fun k =>
    funext fun a => Fin.ext (by match a with | ⟨0, _⟩ => rfl | ⟨1, _⟩ => rfl)
  have r2 : ∀ k : Fin 128, idx_main_v15 (ridx_main_v16 (ix2 r q) k) = ix2 q k := fun k =>
    funext fun a => Fin.ext (by match a with | ⟨0, _⟩ => rfl | ⟨1, _⟩ => rfl)
  have b1 : idx_main_v12 (idx_main_v13 (ix2 r q)) = ix1 q :=
    funext fun a => Fin.ext (by match a with | ⟨0, _⟩ => rfl)
  have b2 : idx_main_v18 (idx_main_v19 (ix2 r q)) = ix1 q :=
    funext fun a => Fin.ext (by match a with | ⟨0, _⟩ => rfl)
  simp only [l1, r1, l2, r2, b1, b2]
  exact LstmCell.pre_eq_interleaved (val_main_v9 (F := Ideal) x0 x7 x8) x1 x3 x4 x5 x6 r q

/-- The second result is the new cell state. -/
theorem cell_apply (i : S100000x128.Idx) :
    val_main_v46 (F := Ideal) x0 x1 x2 x3 x4 x5 x6 x7 x8 i
      = LstmCell.cell (val_main_v9 (F := Ideal) x0 x7 x8) x1 x2 x3 x4 x5 x6 i := by
  obtain ⟨r, j, rfl⟩ : ∃ (r : Fin 100000) (j : Fin 128), i = ix2 r j := ⟨i 0, i 1, eq_ix2 i⟩
  have e21 : idx_main_v21 (ix2 r j) = ix2 r (LstmCell.col 0 (by omega) j) :=
    funext fun a => Fin.ext (by match a with | ⟨0, _⟩ => rfl | ⟨1, _⟩ => rfl)
  have e22 : idx_main_v22 (ix2 r j) = ix2 r (LstmCell.col 128 (by omega) j) :=
    funext fun a => Fin.ext (by match a with | ⟨0, _⟩ => rfl | ⟨1, _⟩ => exact Nat.add_comm _ _)
  have e23 : idx_main_v23 (ix2 r j) = ix2 r (LstmCell.col 256 (by omega) j) :=
    funext fun a => Fin.ext (by match a with | ⟨0, _⟩ => rfl | ⟨1, _⟩ => exact Nat.add_comm _ _)
  rw [val_main_v46_apply, val_main_v44_apply, val_main_v45_apply, val_main_v36_apply, val_main_v30_apply,
    val_main_v37_apply, val_main_v35_apply, val_main_v34_apply, val_main_v29_apply, val_main_v28_apply,
    val_main_v33_apply, val_main_v32_apply, val_main_v27_apply, val_main_v26_apply, val_main_v31_apply,
    val_main_v25_apply, val_main_v22_apply, val_main_v21_apply, val_main_v23_apply, val_main_cst_4_apply,
    val_main_cst_3_apply, val_main_cst_2_apply, val_main_cst_1_apply, e21, e22, e23,
    gates_apply, gates_apply, gates_apply, LstmCell.logistic_expanded, LstmCell.logistic_expanded]
  rfl

/-- The first result is the new hidden state. -/
theorem hidden_apply (i : S100000x128.Idx) :
    val_main_v48 (F := Ideal) x0 x1 x2 x3 x4 x5 x6 x7 x8 i
      = LstmCell.hidden (val_main_v9 (F := Ideal) x0 x7 x8) x1 x2 x3 x4 x5 x6 i := by
  obtain ⟨r, j, rfl⟩ : ∃ (r : Fin 100000) (j : Fin 128), i = ix2 r j := ⟨i 0, i 1, eq_ix2 i⟩
  have e24 : idx_main_v24 (ix2 r j) = ix2 r (LstmCell.col 384 (by omega) j) :=
    funext fun a => Fin.ext (by match a with | ⟨0, _⟩ => rfl | ⟨1, _⟩ => exact Nat.add_comm _ _)
  rw [val_main_v48_apply, val_main_v47_apply, cell_apply, val_main_v43_apply, val_main_v42_apply,
    val_main_v41_apply, val_main_v40_apply, val_main_v39_apply, val_main_v38_apply, val_main_v24_apply,
    val_main_cst_6_apply, val_main_cst_5_apply, e24, gates_apply, LstmCell.logistic_expanded]
  rfl

end Cert.ReferenceIdeal.Cell

end
-- ==== Proof.lean ====
/-
  One step of a long short-term memory cell over 100000 vertices, after a sparse aggregation of edge messages:
  a blocked kernel against the plain array program, equal over the extended reals.

  Both programs first build the same array of aggregated messages: the rows of the edge features named by the edge
  ids, each added into the row named by its vertex id (the same gather and the same scatter-add, term for term).
  The kernel then walks the vertices in 50 blocks of 2000 rows: it multiplies the block of messages and the block
  of hidden states by the two transposed weight matrices, adds both products and then both biases, cuts the 512
  columns into four gates and combines them with the block of cell states. The reference does the same on whole
  arrays, adding the first bias before the second product and spelling the logistic function as 1 / (1 + exp (-v)).
  Index by index both are `LstmCell.hidden` and `LstmCell.cell` of the aggregated messages and the other arguments:
  a product into a zero accumulator and the host's dot product are the same sum over the inner index, addition of
  extended reals is commutative and associative (so the order of the biases does not matter, infinities included),
  and the spelled-out quotient is the logistic function at every extended real. No entry needs to be finite.
  The kernel's run and its array, block by block, are the generated frame and value leg; the reference's run and
  its stages at an index are the generated run and read modules.
-/
import proofs.«134043_j46669114638611_1_alg».proof.Defs
import proofs.«134043_j46669114638611_1_alg».proof.Proof.Gen.Kernel
import proofs.«134043_j46669114638611_1_alg».proof.Proof.Gen.Kernel.Skeleton
import proofs.«134043_j46669114638611_1_alg».proof.Proof.Gen.Kernel.Launch
import proofs.«134043_j46669114638611_1_alg».proof.Proof.Gen.Kernel.Points
import proofs.«134043_j46669114638611_1_alg».proof.Proof.Gen.Kernel.Frame
import proofs.«134043_j46669114638611_1_alg».proof.Proof.Gen.KernelIdeal
import proofs.«134043_j46669114638611_1_alg».proof.Proof.Gen.KernelIdeal.Skeleton
import proofs.«134043_j46669114638611_1_alg».proof.Proof.Gen.KernelIdeal.Launch
import proofs.«134043_j46669114638611_1_alg».proof.Proof.Gen.KernelIdeal.Points
import proofs.«134043_j46669114638611_1_alg».proof.Proof.Gen.KernelIdeal.Frame
import proofs.«134043_j46669114638611_1_alg».proof.Proof.Gen.ReferenceIdeal
import proofs.«134043_j46669114638611_1_alg».proof.Proof.Gen.Pre_finite_inputs
import proofs.«134043_j46669114638611_1_alg».proof.Proof.Gen.KernelIdeal.Value
import proofs.«134043_j46669114638611_1_alg».proof.Proof.Gen.ReferenceIdeal.Run
import proofs.«134043_j46669114638611_1_alg».proof.Proof.Gen.ReferenceIdeal.Read
import proofs.«134043_j46669114638611_1_alg».proof.Proof.KernelArray
import proofs.«134043_j46669114638611_1_alg».proof.Proof.ReferenceCell
import Idealize.ShloMosaic.Adequacy
import Idealize.ShloMosaic.Init

noncomputable section

namespace Cert.Proof

open Idealize.ShloMosaic Idealize.ShloMosaic.TcCoe Idealize.SL.Sem

/-- The reference aggregates the messages by the very operations the kernel's program does: the two terms are one. -/
theorem msg_agree (x : (⟨Cert.ReferenceIdeal.S800000x128, .f32⟩ : BufTy).Contents (Elt Ideal))
    (e v : (⟨Cert.ReferenceIdeal.S1600000, .i32⟩ : BufTy).Contents (Elt Ideal)) :
    Cert.ReferenceIdeal.Read.val_main_v9 (F := Ideal) x e v = Cert.KernelIdeal.Whole.msg x e v := by
  unfold Cert.KernelIdeal.Whole.msg Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_c
    Cert.ReferenceIdeal.Read.val_main_c_0 Cert.ReferenceIdeal.Read.val_main_cst
  rfl

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs end with the new hidden states and the new cell states of `LstmCell`, of arguments that agree. -/
theorem algebraic : Cert.algebraic_KernelIdeal_ReferenceIdeal := by
  intro m ρ m' ρ' _ hagree
  refine ⟨fun c => Cert.KernelIdeal.Whole.hiddenArr m c, fun c => Cert.KernelIdeal.Whole.cellArr m c,
    Cert.KernelIdeal.Whole.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, -⟩ := hagree c
    rw [Cert.ReferenceIdeal.Read.val_main_v48_eq, h0, h1, h2, h3, h4, h5, h6, h7, h8]
    funext i
    rw [Cert.ReferenceIdeal.Cell.hidden_apply, msg_agree]
    unfold Cert.KernelIdeal.Whole.hiddenArr Cert.KernelIdeal.Whole.msgArr
    rfl
  · obtain ⟨h0, h1, h2, h3, h4, h5, h6, h7, h8, -⟩ := hagree c
    rw [Cert.ReferenceIdeal.Read.val_main_v46_eq, h0, h1, h2, h3, h4, h5, h6, h7, h8]
    funext i
    rw [Cert.ReferenceIdeal.Cell.cell_apply, msg_agree]
    unfold Cert.KernelIdeal.Whole.cellArr Cert.KernelIdeal.Whole.msgArr
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
